-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x16 : Shape := ⟨2, ![8192, 16]⟩
abbrev S4369x4096 : Shape := ⟨2, ![4369, 4096]⟩
abbrev S4096 : Shape := ⟨1, ![4096]⟩
abbrev S_ : Shape := ⟨0, ![]⟩

class Facts : Prop where
  bcast_S_S8192x16 : S_.BroadcastsInDim S8192x16 (![] : Fin 0 → Fin S8192x16.rank)
  reducesTo_S8192x16_S_d0_1 : S8192x16.ReducesTo [0, 1] S_
  h_S_ : 0 < S_.numel
  bcast_S_S4369x4096 : S_.BroadcastsInDim S4369x4096 (![] : Fin 0 → Fin S4369x4096.rank)
  reducesTo_S4369x4096_S_d0_1 : S4369x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x16 .f32) (main_arg1 : FVec F S4369x4096 .f32) (main_arg2 : FVec F S4096 .f32) : IVec S_ 1 :=
  let main_v0 : FVec F S8192x16 .f32 := Host.absf main_arg0
  let main_cst : FVec F S_ .f32 := constant S_ .f32 0x7F800000#32
  let main_v1 : FVec F S8192x16 .f32 := broadcastInDim S8192x16 ![] bcast_S_S8192x16 main_cst
  let main_v2 : IVec S8192x16 1 := cmpf .olt main_v0 main_v1
  let main_c : IVec S_ 1 := constantI S_ 1 1#1
  let main_v3 : IVec S_ 1 := (fun x v => Host.reduce IntOp.andi x v reducesTo_S8192x16_S_d0_1 h_S_) main_v2 main_c
  let main_v4 : FVec F S4369x4096 .f32 := Host.absf main_arg1
  let main_cst_0 : FVec F S_ .f32 := constant S_ .f32 0x7F800000#32
  let main_v5 : FVec F S4369x4096 .f32 := broadcastInDim S4369x4096 ![] bcast_S_S4369x4096 main_cst_0
  let main_v6 : IVec S4369x4096 1 := cmpf .olt main_v4 main_v5
  let main_c_1 : IVec S_ 1 := constantI S_ 1 1#1
  let main_v7 : IVec S_ 1 := (fun x v => Host.reduce IntOp.andi x v reducesTo_S4369x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x16 : Shape := ⟨2, ![8192, 16]⟩
abbrev S4369x4096 : Shape := ⟨2, ![4369, 4096]⟩
abbrev S4096 : Shape := ⟨1, ![4096]⟩
abbrev S1x4096 : Shape := ⟨2, ![1, 4096]⟩
abbrev S8192x4096 : Shape := ⟨2, ![8192, 4096]⟩
abbrev S512x16 : Shape := ⟨2, ![512, 16]⟩
abbrev S4369x1024 : Shape := ⟨2, ![4369, 1024]⟩
abbrev S1x1024 : Shape := ⟨2, ![1, 1024]⟩
abbrev S512x1024 : Shape := ⟨2, ![512, 1024]⟩
abbrev S512x1 : Shape := ⟨2, ![512, 1]⟩
abbrev S512x16x1 : Shape := ⟨3, ![512, 16, 1]⟩
abbrev S512x1x16 : Shape := ⟨3, ![512, 1, 16]⟩
abbrev S512x16x16 : Shape := ⟨3, ![512, 16, 16]⟩
abbrev S512x256 : Shape := ⟨2, ![512, 256]⟩
abbrev S512x256x1 : Shape := ⟨3, ![512, 256, 1]⟩
abbrev S512x256x16 : Shape := ⟨3, ![512, 256, 16]⟩
abbrev S512x4096 : Shape := ⟨2, ![512, 4096]⟩
abbrev S512x4369 : Shape := ⟨2, ![512, 4369]⟩

abbrev nBuf : Space → Nat
  | .hbm => 6
  | .vmem => 8
  | .smem => 0
  | _ => 0

abbrev bufTy : (tb : Table) → Fin (tcTables nBuf tb) → BufTy
  | .hbm, ⟨0, _⟩ => ⟨S8192x16, .f32⟩
  | .hbm, ⟨1, _⟩ => ⟨S4369x4096, .f32⟩
  | .hbm, ⟨2, _⟩ => ⟨S4096, .f32⟩
  | .hbm, ⟨3, _⟩ => ⟨S4369x4096, .bf16⟩
  | .hbm, ⟨4, _⟩ => ⟨S1x4096, .f32⟩
  | .hbm, ⟨5, _⟩ => ⟨S8192x4096, .f32⟩
  | .local _ .vmem, ⟨0, _⟩ => ⟨S512x16, .f32⟩
  | .local _ .vmem, ⟨1, _⟩ => ⟨S512x16, .f32⟩
  | .local _ .vmem, ⟨2, _⟩ => ⟨S4369x1024, .bf16⟩
  | .local _ .vmem, ⟨3, _⟩ => ⟨S4369x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S8192x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4369x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bitsLt_bf16_f32 : FTy.bits .bf16 < FTy.bits .f32
  shapeCasts_S4096_S1x4096 : S4096.ShapeCasts S1x4096
  inb_S512x16_S512x16_0_0 : ∀ a, (![0, 0] : Fin 2 → Nat) a + S512x16.size a ≤ S512x16.size a
  h_S512x16 : 0 < S512x16.numel
  shapeCasts_S512x16_S512x16x1 : S512x16.ShapeCasts S512x16x1
  shapeCasts_S512x16_S512x1x16 : S512x16.ShapeCasts S512x1x16
  broadcasts_S512x16x1_S512x16x16 : S512x16x1.Broadcasts S512x16x16
  broadcasts_S512x1x16_S512x16x16 : S512x1x16.Broadcasts S512x16x16
  shapeCasts_S512x16x16_S512x256 : S512x16x16.ShapeCasts S512x256
  shapeCasts_S512x256_S512x256x1 : S512x256.ShapeCasts S512x256x1
  broadcasts_S512x256x1_S512x256x16 : S512x256x1.Broadcasts S512x256x16
  broadcasts_S512x1x16_S512x256x16 : S512x1x16.Broadcasts S512x256x16
  shapeCasts_S512x256x16_S512x4096 : S512x256x16.ShapeCasts S512x4096
  concatenates_S512x1_S512x16_S512x256_S512x4096_S512x4369_d1 : Shape.Concatenates [S512x1, S512x16, S512x256, S512x4096] S512x4369 1
  inb_S4369x1024_S4369x1024_0_0 : ∀ a, (![0, 0] : Fin 2 → Nat) a + S4369x1024.size a ≤ S4369x1024.size a
  h_S4369x1024 : 0 < S4369x1024.numel
  shapeCasts_S4369x1024_S4369x1024 : S4369x1024.ShapeCasts S4369x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  dot_S512x4369_S4369x1024_S512x1024_1_0_0_1_n_n_wf : DotDims.WF S512x4369 S4369x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x16.size a ≤ S8192x16.size a
  hwx0_0 : ∀ i : grid0.Coords, EltTy.bits .f32 = 32 ∨ (Rect.block (s := S8192x16) S512x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4369x1024.size a ≤ S4369x4096.size a
  hwx0_1 : ∀ i : grid0.Coords, EltTy.bits .bf16 = 32 ∨ (Rect.block (s := S4369x4096) S4369x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x4096.size a
  hwx0_3 : ∀ i : grid0.Coords, EltTy.bits .f32 = 32 ∨ (Rect.block (s := S8192x4096) S512x1024.size (cc0_transform_3 i) (hinb0_3 i)).WholeWords (EltTy.packing .f32)

variable [Facts₀]

def dot_S512x4369_S4369x1024_S512x1024_1_0_0_1_n_n : DotDims S512x4369 S4369x1024 S512x1024 where
  lhsContracting := [1]
  rhsContracting := [0]
  lhsNonContracting := [0]
  rhsNonContracting := [1]
  lhsBatch := []
  rhsBatch := []
  wf := dot_S512x4369_S4369x1024_S512x1024_1_0_0_1_n_n_wf

abbrev win0_0 : Pipeline.Window sig grid0 :=
  Pipeline.Window.ofSpec (Memref.whole main_arg0) S512x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4369x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x16 : Shape := ⟨2, ![8192, 16]⟩
abbrev S4369x4096 : Shape := ⟨2, ![4369, 4096]⟩
abbrev S4096 : Shape := ⟨1, ![4096]⟩
abbrev S_ : Shape := ⟨0, ![]⟩
abbrev S8192x1 : Shape := ⟨2, ![8192, 1]⟩
abbrev S8192x16x1 : Shape := ⟨3, ![8192, 16, 1]⟩
abbrev S8192x1x16 : Shape := ⟨3, ![8192, 1, 16]⟩
abbrev S8192x16x16 : Shape := ⟨3, ![8192, 16, 16]⟩
abbrev S8192x256 : Shape := ⟨2, ![8192, 256]⟩
abbrev S8192x256x1 : Shape := ⟨3, ![8192, 256, 1]⟩
abbrev S8192x256x16 : Shape := ⟨3, ![8192, 256, 16]⟩
abbrev S8192x4096 : Shape := ⟨2, ![8192, 4096]⟩
abbrev S8192x4369 : Shape := ⟨2, ![8192, 4369]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S8192x16, .f32⟩
  | .hbm, ⟨1, _⟩ => ⟨S4369x4096, .f32⟩
  | .hbm, ⟨2, _⟩ => ⟨S4096, .f32⟩
  | .hbm, ⟨3, _⟩ => ⟨S_, .f32⟩
  | .hbm, ⟨4, _⟩ => ⟨S8192x1, .f32⟩
  | .hbm, ⟨5, _⟩ => ⟨S8192x16x1, .f32⟩
  | .hbm, ⟨6, _⟩ => ⟨S8192x1x16, .f32⟩
  | .hbm, ⟨7, _⟩ => ⟨S8192x16x16, .f32⟩
  | .hbm, ⟨8, _⟩ => ⟨S8192x16x16, .f32⟩
  | .hbm, ⟨9, _⟩ => ⟨S8192x16x16, .f32⟩
  | .hbm, ⟨10, _⟩ => ⟨S8192x256, .f32⟩
  | .hbm, ⟨11, _⟩ => ⟨S8192x256x1, .f32⟩
  | .hbm, ⟨12, _⟩ => ⟨S8192x1x16, .f32⟩
  | .hbm, ⟨13, _⟩ => ⟨S8192x256x16, .f32⟩
  | .hbm, ⟨14, _⟩ => ⟨S8192x256x16, .f32⟩
  | .hbm, ⟨15, _⟩ => ⟨S8192x256x16, .f32⟩
  | .hbm, ⟨16, _⟩ => ⟨S8192x4096, .f32⟩
  | .hbm, ⟨17, _⟩ => ⟨S8192x4369, .f32⟩
  | .hbm, ⟨18, _⟩ => ⟨S8192x4096, .f32⟩
  | .hbm, ⟨19, _⟩ => ⟨S1x4096, .f32⟩
  | .hbm, ⟨20, _⟩ => ⟨S8192x4096, .f32⟩
  | .hbm, ⟨21, _⟩ => ⟨S8192x4096, .f32⟩
  | _, _ => ⟨S8192x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩

abbrev nD : Nat := 1
abbrev τ : Topo := Topo.v7x

variable {F : FTy → Type} [FloatOps F]

class Facts₀ : Prop where
  bcast_S_S8192x1 : S_.BroadcastsInDim S8192x1 (![] : Fin 0 → Fin S8192x1.rank)
  bcast_S8192x16_S8192x16x1_0_1 : S8192x16.BroadcastsInDim S8192x16x1 (![0, 1] : Fin 2 → Fin S8192x16x1.rank)
  bcast_S8192x16_S8192x1x16_0_2 : S8192x16.BroadcastsInDim S8192x1x16 (![0, 2] : Fin 2 → Fin S8192x1x16.rank)
  bcast_S8192x16x1_S8192x16x16_0_1_2 : S8192x16x1.BroadcastsInDim S8192x16x16 (![0, 1, 2] : Fin 3 → Fin S8192x16x16.rank)
  bcast_S8192x1x16_S8192x16x16_0_1_2 : S8192x1x16.BroadcastsInDim S8192x16x16 (![0, 1, 2] : Fin 3 → Fin S8192x16x16.rank)
  shapeCasts_S8192x16x16_S8192x256 : S8192x16x16.ShapeCasts S8192x256
  bcast_S8192x256_S8192x256x1_0_1 : S8192x256.BroadcastsInDim S8192x256x1 (![0, 1] : Fin 2 → Fin S8192x256x1.rank)
  bcast_S8192x256x1_S8192x256x16_0_1_2 : S8192x256x1.BroadcastsInDim S8192x256x16 (![0, 1, 2] : Fin 3 → Fin S8192x256x16.rank)
  bcast_S8192x1x16_S8192x256x16_0_1_2 : S8192x1x16.BroadcastsInDim S8192x256x16 (![0, 1, 2] : Fin 3 → Fin S8192x256x16.rank)
  shapeCasts_S8192x256x16_S8192x4096 : S8192x256x16.ShapeCasts S8192x4096
  concatenates_S8192x1_S8192x16_S8192x256_S8192x4096_S8192x4369_d1 : Shape.Concatenates [S8192x1, S8192x16, S8192x256, S8192x4096] S8192x4369 1
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4369_S4369x4096_S8192x4096_1_0_0_1_n_n_wf : DotDims.WF S8192x4369 S4369x4096 S8192x4096 [1] [0] [0] [1] [] []

variable [Facts₀]

def dot_S8192x4369_S4369x4096_S8192x4096_1_0_0_1_n_n : DotDims S8192x4369 S4369x4096 S8192x4096 where
  lhsContracting := [1]
  rhsContracting := [0]
  lhsNonContracting := [0]
  rhsNonContracting := [1]
  lhsBatch := []
  rhsBatch := []
  wf := dot_S8192x4369_S4369x4096_S8192x4096_1_0_0_1_n_n_wf

class Facts : Prop extends Facts₀ where

variable [Facts]
-- ==== Proof.PolyFeatures.lean ====
/-
  The polynomial features of a 16-vector x, of degree at most three, laid out as one row of 4369 entries:
  entry 0 is 1; entries 1 … 16 are the x_i; entries 17 … 272 the products x_i · x_j, row-major in (i, j); entries
  273 … 4368 the products (x_i · x_j) · x_k, row-major in (i, j, k).  The decoder's result is the feature row times a
  weight matrix plus a bias.  This file states that result as one function of the three argument arrays, and reads
  the layout operations both programs build the feature row with — a re-laying of a rank-3 array as rank 2, a
  vector expanded along a new trailing or a new middle axis, four arrays joined along the column axis — at one index.
-/
import Idealize.ShloMosaic.Lib.ValueIdx
import Idealize.ShloMosaic.Lib.Pipeline.Value
import Idealize.ShloMosaic.PureOps.Ideal.Laws

noncomputable section

namespace Cert.Poly

open Idealize.ShloMosaic Idealize.ShloMosaic.ValueIdx

/-! ## The feature row and the decoder's result -/

/-- Entry l of the feature row of x. -/
def feat (x : Fin 16 → EReal) (l : Fin 4369) : EReal :=
  if _h1 : l.val < 1 then 1
  else if _h2 : l.val < 17 then x ⟨l.val - 1, by omega⟩
  else if _h3 : l.val < 273 then x ⟨(l.val - 17) / 16, by omega⟩ * x ⟨(l.val - 17) % 16, by omega⟩
  else x ⟨(l.val - 273) / 16 / 16, by have := l.isLt; omega⟩ * x ⟨(l.val - 273) / 16 % 16, by omega⟩
        * x ⟨(l.val - 273) % 16, by omega⟩

/-- The decoder: at (r, c), the feature row of z's row r against column c of W, plus b at c. -/
def G (z : FVec Ideal ⟨2, ![8192, 16]⟩ .f32) (W : FVec Ideal ⟨2, ![4369, 4096]⟩ .f32) (b : FVec Ideal ⟨1, ![4096]⟩ .f32) :
    FVec Ideal ⟨2, ![8192, 4096]⟩ .f32 :=
  fun i => (∑ l : Fin 4369, feat (fun j => z (ix2 (i 0) j)) l * W (ix2 l (i 1))) + b (ix1 (i 1))

/-- The word of 1.0 in single precision denotes 1, -/
theorem one_f32 : Ideal.ofBits .f32 0x3F800000#32 = 1 := IdealRules.sign_bit.ideal_onePat .f32
/-- and so does the word of 1.0 in the sixteen-bit format. -/
theorem one_bf16 : Ideal.ofBits .bf16 0x3F80#16 = 1 := IdealRules.sign_bit.ideal_onePat .bf16

variable {α : Type} {R : ℕ}

/-! ## Re-laying [R, A, 16] as [R, A · 16]: column c holds the entry at (c / 16, c mod 16) -/

theorem relay_16x16 (y : (⟨3, ![R, 16, 16]⟩ : Shape).Idx → α)
    (h : (⟨3, ![R, 16, 16]⟩ : Shape).ShapeCasts ⟨2, ![R, 256]⟩) (p : Fin R) (c : Fin 256) :
    shapeCast ⟨2, ![R, 256]⟩ y h (ix2 p c) = y (ix3 p ⟨c.val / 16, by omega⟩ ⟨c.val % 16, by omega⟩) :=
  shapeCast_apply y h _ _ (by
    rw [Shape.rowMajor_val_three, Shape.rowMajor_val_two]
    show (p.val * 16 + c.val / 16) * 16 + c.val % 16 = p.val * 256 + c.val
    omega)

theorem relay_256x16 (y : (⟨3, ![R, 256, 16]⟩ : Shape).Idx → α)
    (h : (⟨3, ![R, 256, 16]⟩ : Shape).ShapeCasts ⟨2, ![R, 4096]⟩) (p : Fin R) (c : Fin 4096) :
    shapeCast ⟨2, ![R, 4096]⟩ y h (ix2 p c) = y (ix3 p ⟨c.val / 16, by omega⟩ ⟨c.val % 16, by omega⟩) :=
  shapeCast_apply y h _ _ (by
    rw [Shape.rowMajor_val_three, Shape.rowMajor_val_two]
    show (p.val * 256 + c.val / 16) * 16 + c.val % 16 = p.val * 4096 + c.val
    omega)

/-! ## A matrix expanded along a new axis -/

variable {A B : ℕ}

/-- [R, A] re-laid as [R, A, 1] and repeated along the last axis: entry (p, a, b) is the matrix's (p, a). -/
theorem expand_last (x : (⟨2, ![R, A]⟩ : Shape).Idx → α)
    (h1 : (⟨2, ![R, A]⟩ : Shape).ShapeCasts ⟨3, ![R, A, 1]⟩) (h2 : (⟨3, ![R, A, 1]⟩ : Shape).Broadcasts ⟨3, ![R, A, B]⟩)
    (p : Fin R) (a : Fin A) (b : Fin B) :
    broadcastTo ⟨3, ![R, A, B]⟩ (shapeCast ⟨3, ![R, A, 1]⟩ x h1) h2 (ix3 p a b) = x (ix2 p a) := by
  refine (broadcastTo_apply _ h2 (ix3 p a b) (ix3 p a ⟨0, Nat.one_pos⟩) ?_).trans ?_
  · intro d
    match d with
    | ⟨0, _⟩ =>
      show p.val = if R = 1 then 0 else p.val
      have := p.isLt
      split_ifs <;> omega
    | ⟨1, _⟩ =>
      show a.val = if A = 1 then 0 else a.val
      have := a.isLt
      split_ifs <;> omega
    | ⟨2, _⟩ =>
      show 0 = if (1 : ℕ) = 1 then 0 else b.val
      rw [if_pos rfl]
  · exact shapeCast_apply x h1 _ (ix2 p a) (by
      rw [Shape.rowMajor_val_three, Shape.rowMajor_val_two]
      show p.val * A + a.val = (p.val * A + a.val) * 1 + 0
      omega)

/-- [R, B] re-laid as [R, 1, B] and repeated along the middle axis: entry (p, a, b) is the matrix's (p, b). -/
theorem expand_mid (x : (⟨2, ![R, B]⟩ : Shape).Idx → α)
    (h1 : (⟨2, ![R, B]⟩ : Shape).ShapeCasts ⟨3, ![R, 1, B]⟩) (h2 : (⟨3, ![R, 1, B]⟩ : Shape).Broadcasts ⟨3, ![R, A, B]⟩)
    (p : Fin R) (a : Fin A) (b : Fin B) :
    broadcastTo ⟨3, ![R, A, B]⟩ (shapeCast ⟨3, ![R, 1, B]⟩ x h1) h2 (ix3 p a b) = x (ix2 p b) := by
  refine (broadcastTo_apply _ h2 (ix3 p a b) (ix3 p ⟨0, Nat.one_pos⟩ b) ?_).trans ?_
  · intro d
    match d with
    | ⟨0, _⟩ =>
      show p.val = if R = 1 then 0 else p.val
      have := p.isLt
      split_ifs <;> omega
    | ⟨1, _⟩ =>
      show 0 = if (1 : ℕ) = 1 then 0 else a.val
      rw [if_pos rfl]
    | ⟨2, _⟩ =>
      show b.val = if B = 1 then 0 else b.val
      have := b.isLt
      split_ifs <;> omega
  · exact shapeCast_apply x h1 _ (ix2 p b) (by
      rw [Shape.rowMajor_val_three, Shape.rowMajor_val_two]
      show p.val * B + b.val = (p.val * 1 + 0) * B + b.val
      rw [Nat.mul_one, Nat.add_zero])

/-! ## Four arrays of 1, 16, 256 and 4096 columns joined along the column axis -/

/-- Column l of the join is column l of the first, l − 1 of the second, l − 17 of the third or l − 273 of the
    fourth array, by where l falls. -/
theorem join4_apply (P0 : (⟨2, ![R, 1]⟩ : Shape).Idx → α) (P1 : (⟨2, ![R, 16]⟩ : Shape).Idx → α)
    (P2 : (⟨2, ![R, 256]⟩ : Shape).Idx → α) (P3 : (⟨2, ![R, 4096]⟩ : Shape).Idx → α)
    (h : Shape.Concatenates [⟨2, ![R, 1]⟩, ⟨2, ![R, 16]⟩, ⟨2, ![R, 256]⟩, ⟨2, ![R, 4096]⟩] ⟨2, ![R, 4369]⟩ 1)
    (p : Fin R) (l : Fin 4369) :
    concatenate ⟨2, ![R, 4369]⟩ 1 [⟨⟨2, ![R, 1]⟩, P0⟩, ⟨⟨2, ![R, 16]⟩, P1⟩, ⟨⟨2, ![R, 256]⟩, P2⟩, ⟨⟨2, ![R, 4096]⟩, P3⟩] h (ix2 p l)
      = if _h1 : l.val < 1 then P0 (ix2 p ⟨0, Nat.one_pos⟩)
        else if _h2 : l.val < 17 then P1 (ix2 p ⟨l.val - 1, by omega⟩)
        else if _h3 : l.val < 273 then P2 (ix2 p ⟨l.val - 17, by omega⟩)
        else P3 (ix2 p ⟨l.val - 273, by have := l.isLt; omega⟩) := by
  have hl := l.isLt
  by_cases h1 : l.val < 1
  · rw [dif_pos h1]
    refine concatenate_apply_piece 1 [⟨⟨2, ![R, 1]⟩, P0⟩, ⟨⟨2, ![R, 16]⟩, P1⟩, ⟨⟨2, ![R, 256]⟩, P2⟩, ⟨⟨2, ![R, 4096]⟩, P3⟩] h (ix2 p l) 0
      (by show (0 : ℕ) < 4; omega) _ P0 rfl rfl 0 rfl (ix2 p ⟨0, Nat.one_pos⟩) ?_ ?_
    · intro b hb
      match b with
      | ⟨0, _⟩ => rfl
      | ⟨1, _⟩ => exact absurd rfl hb
    · show 0 + 0 = l.val
      omega
  rw [dif_neg h1]
  by_cases h2 : l.val < 17
  · rw [dif_pos h2]
    refine concatenate_apply_piece 1 [⟨⟨2, ![R, 1]⟩, P0⟩, ⟨⟨2, ![R, 16]⟩, P1⟩, ⟨⟨2, ![R, 256]⟩, P2⟩, ⟨⟨2, ![R, 4096]⟩, P3⟩] h (ix2 p l) 1
      (by show (1 : ℕ) < 4; omega) _ P1 rfl rfl 1 rfl (ix2 p ⟨l.val - 1, by omega⟩) ?_ ?_
    · intro b hb
      match b with
      | ⟨0, _⟩ => rfl
      | ⟨1, _⟩ => exact absurd rfl hb
    · show 1 + (l.val - 1) = l.val
      omega
  rw [dif_neg h2]
  by_cases h3 : l.val < 273
  · rw [dif_pos h3]
    refine concatenate_apply_piece 1 [⟨⟨2, ![R, 1]⟩, P0⟩, ⟨⟨2, ![R, 16]⟩, P1⟩, ⟨⟨2, ![R, 256]⟩, P2⟩, ⟨⟨2, ![R, 4096]⟩, P3⟩] h (ix2 p l) 2
      (by show (2 : ℕ) < 4; omega) _ P2 rfl rfl 17 rfl (ix2 p ⟨l.val - 17, by omega⟩) ?_ ?_
    · intro b hb
      match b with
      | ⟨0, _⟩ => rfl
      | ⟨1, _⟩ => exact absurd rfl hb
    · show 17 + (l.val - 17) = l.val
      omega
  rw [dif_neg h3]
  refine concatenate_apply_piece 1 [⟨⟨2, ![R, 1]⟩, P0⟩, ⟨⟨2, ![R, 16]⟩, P1⟩, ⟨⟨2, ![R, 256]⟩, P2⟩, ⟨⟨2, ![R, 4096]⟩, P3⟩] h (ix2 p l) 3
      (by show (3 : ℕ) < 4; omega) _ P3 rfl rfl 273 rfl (ix2 p ⟨l.val - 273, by omega⟩) ?_ ?_
  · intro b hb
    match b with
    | ⟨0, _⟩ => rfl
    | ⟨1, _⟩ => exact absurd rfl hb
  · show 273 + (l.val - 273) = l.val
    omega

end Cert.Poly

end
-- ==== Proof.LibMatmulPlain.lean ====
/-
  A matrix product with no batch axis, rows × contraction by contraction × columns, read at one entry on the extended
  reals: into a zero accumulator it is the plain sum over the contraction coordinate of the products of the two
  operands' entries.  Stated once for any extents and any dimension-number record of that pattern, for the vector
  unit's product and for the host's.
-/
import Idealize.ShloMosaic.Lib.ValueIdx
import Idealize.ShloMosaic.PureOps.Ideal.Laws

noncomputable section

namespace Cert.Gcn

open Idealize.ShloMosaic Idealize.ShloMosaic.ValueIdx

variable {M K N : ℕ}

/-- The dimension numbers contract the left operand's columns with the right operand's rows and keep the left rows
    and the right columns, with no batch axis. -/
structure IsPlain (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

/-- The sum over the one-axis contraction index is the sum over its coordinate, the left operand read at
    (row, l) and the right at (l, column). -/
theorem plain_sum {φ₁ φ₂ : FTy} (D : DotDims ⟨2, ![M, K]⟩ ⟨2, ![K, N]⟩ ⟨2, ![M, N]⟩) (hD : IsPlain D)
    (A : FVec Ideal ⟨2, ![M, K]⟩ φ₁) (B : FVec Ideal ⟨2, ![K, N]⟩ φ₂) (p : Fin M) (q : Fin N) :
    ∑ k : D.contr.Idx, A (D.lhsIdx (ix2 p q) k) * B (D.rhsIdx (ix2 p q) k) = ∑ l : Fin K, A (ix2 p l) * B (ix2 l q) := by
  obtain ⟨lc, rc, ln, rn, lb, rb, wf⟩ := D
  obtain ⟨h1, h2, h3, h4, h5, h6⟩ := hD
  simp only at h1 h2 h3 h4 h5 h6
  subst h1 h2 h3 h4 h5 h6
  set D : DotDims ⟨2, ![M, K]⟩ ⟨2, ![K, N]⟩ ⟨2, ![M, N]⟩ := ⟨[1], [0], [0], [1], [], [], wf⟩ with hDdef
  rw [← Equiv.sum_comp (contrEquiv1 D K rfl rfl).symm]
  refine Finset.sum_congr rfl fun l _ => ?_
  have hk := contrEquiv1_symm_val D K rfl rfl l
  have l0 : ∀ (i : (⟨2, ![M, N]⟩ : Shape).Idx) (k : D.contr.Idx), (D.lhsIdx i k 0).val = (i 0).val := by
    intro i k
    unfold DotDims.lhsIdx
    rw [dif_neg (show ¬(0 : Fin 2) ∈ ([] : List (Fin 2)) by decide), dif_pos (show (0 : Fin 2) ∈ ([0] : List (Fin 2)) by decide)]
    rfl
  have l1 : ∀ (i : (⟨2, ![M, N]⟩ : Shape).Idx) (k : D.contr.Idx), (D.lhsIdx i k 1).val = (k ⟨0, Nat.one_pos⟩).val :=
    fun i k => D.lhsIdx_val_of_single rfl i k
  have r0 : ∀ (i : (⟨2, ![M, N]⟩ : Shape).Idx) (k : D.contr.Idx), (D.rhsIdx i k 0).val = (k ⟨0, Nat.one_pos⟩).val :=
    fun i k => D.rhsIdx_val_of_single rfl i k
  have r1 : ∀ (i : (⟨2, ![M, N]⟩ : Shape).Idx) (k : D.contr.Idx), (D.rhsIdx i k 1).val = (i 1).val := by
    intro i k
    unfold DotDims.rhsIdx
    rw [dif_neg (show ¬(1 : Fin 2) ∈ ([] : List (Fin 2)) by decide), dif_pos (show (1 : Fin 2) ∈ ([1] : List (Fin 2)) by decide)]
    rfl
  have el : D.lhsIdx (ix2 p q) ((contrEquiv1 D K rfl rfl).symm l) = ix2 p l := funext fun a => Fin.ext (by
    match a with
    | ⟨0, _⟩ => exact l0 _ _
    | ⟨1, _⟩ => exact (l1 _ _).trans hk)
  have er : D.rhsIdx (ix2 p q) ((contrEquiv1 D K rfl rfl).symm l) = ix2 l q := funext fun a => Fin.ext (by
    match a with
    | ⟨0, _⟩ => exact (r0 _ _).trans hk
    | ⟨1, _⟩ => exact r1 _ _)
  rw [el, er]

/-- The vector unit's product into the zero accumulator, at entry (p, q). -/
theorem matmul_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    matmul D prec A B (constant (F := Ideal) ⟨2, ![M, N]⟩ .f32 0x00000000#32) (ix2 p q) = ∑ l : Fin K, A (ix2 p l) * B (ix2 l q) := by
  simp only [matmul]
  rw [Ideal.matmul_constant_zero_apply]
  exact plain_sum D hD A B p q

/-- The host's product, at entry (p, q). -/
theorem dotGeneral_plain_apply {φ₁ φ₂ : FTy} (D : DotDims ⟨2, ![M, K]⟩ ⟨2, ![K, N]⟩ ⟨2, ![M, N]⟩) (hD : IsPlain D)
    (prec : Option ContractPrecision) (A : FVec Ideal ⟨2, ![M, K]⟩ φ₁) (B : FVec Ideal ⟨2, ![K, N]⟩ φ₂) (p : Fin M) (q : Fin N) :
    Host.dotGeneral D prec A B (ix2 p q) = ∑ l : Fin K, A (ix2 p l) * B (ix2 l q) := by
  simp only [Host.dotGeneral]
  rw [Ideal.dotGeneral_apply]
  exact plain_sum D hD A B p q

end Cert.Gcn

end
-- ==== Proof.KernelPayload.lean ====
/-
  The kernel body's stored value at one entry.  The body casts its 512 × 16 block of z to the narrow format (the
  identity on extended reals), forms the pairwise and the triple products by expanding along a new axis, multiplying
  and re-laying row-major, joins a column of ones, the block, the pairs and the triples into the 512 × 4369 feature
  block, multiplies it with the 4369 × 1024 block of weights into a zero accumulator and adds the bias row to every
  row.  So entry (p, q) is the feature row of the block's row p against column q of the weight block, plus the
  bias at q.
-/
import proofs.«108448_j8916352107077_1_alg».proof.Proof.Gen.KernelIdeal.Skeleton
import proofs.«108448_j8916352107077_1_alg».proof.Proof.PolyFeatures
import proofs.«108448_j8916352107077_1_alg».proof.Proof.LibMatmulPlain

noncomputable section

namespace Cert.Poly.Ker

open Idealize.ShloMosaic Idealize.ShloMosaic.ValueIdx
open Cert.KernelIdeal Cert.KernelIdeal.Gen

variable {F : FTy → Type} [FloatOps F]

/-! ## The body's intermediate values, named -/

/-- The block of z in the narrow format. -/
def zb (v0 : Vec F S512x16 .f32) : FVec F S512x16 .bf16 := truncf .bf16 v0 bitsLt_bf16_f32

/-- The pairwise products, re-laid as 256 columns. -/
def pairs (v0 : Vec F S512x16 .f32) : FVec F S512x256 .bf16 :=
  shapeCast S512x256
    (mulf (broadcastTo S512x16x16 (shapeCast S512x16x1 (zb v0) shapeCasts_S512x16_S512x16x1) broadcasts_S512x16x1_S512x16x16)
      (broadcastTo S512x16x16 (shapeCast S512x1x16 (zb v0) shapeCasts_S512x16_S512x1x16) broadcasts_S512x1x16_S512x16x16))
    shapeCasts_S512x16x16_S512x256

/-- The triple products, re-laid as 4096 columns. -/
def triples (v0 : Vec F S512x16 .f32) : FVec F S512x4096 .bf16 :=
  shapeCast S512x4096
    (mulf (broadcastTo S512x256x16 (shapeCast S512x256x1 (pairs v0) shapeCasts_S512x256_S512x256x1) broadcasts_S512x256x1_S512x256x16)
      (broadcastTo S512x256x16 (shapeCast S512x1x16 (zb v0) shapeCasts_S512x16_S512x1x16) broadcasts_S512x1x16_S512x256x16))
    shapeCasts_S512x256x16_S512x4096

/-- The feature block: ones, the block, the pairs, the triples, joined along the columns. -/
def feats (v0 : Vec F S512x16 .f32) : FVec F S512x4369 .bf16 :=
  concatenate S512x4369 1
    [⟨S512x1, broadcast S512x1 (Scalar.ofBits .bf16 0x3F80#16)⟩, ⟨S512x16, zb v0⟩, ⟨S512x256, pairs v0⟩, ⟨S512x4096, triples v0⟩]
    concatenates_S512x1_S512x16_S512x256_S512x4096_S512x4369_d1

/-- The stored value is the product of the feature block with the weight block, plus the bias row on every row. -/
theorem pay_eq (v0 : Vec F S512x16 .f32) (v16 : Vec F S4369x1024 .bf16) (v19 : Vec F S1x1024 .f32) :
    k0_pay1 v0 v16 v19
      = addf (matmul dot_S512x4369_S4369x1024_S512x1024_1_0_0_1_n_n none (feats v0)
            (shapeCast S4369x1024 v16 shapeCasts_S4369x1024_S4369x1024) (constant S512x1024 .f32 0x00000000#32))
          (broadcastTo S512x1024 (shapeCast S1x1024 v19 shapeCasts_S1x1024_S1x1024) broadcasts_S1x1024_S512x1024) := rfl

/-! ## Read at an entry, on the extended reals -/

theorem pairs_apply (v0 : Vec Ideal S512x16 .f32) (p : Fin 512) (c : Fin 256) :
    pairs (F := Ideal) v0 (ix2 p c) = v0 (ix2 p ⟨c.val / 16, by omega⟩) * v0 (ix2 p ⟨c.val % 16, by omega⟩) := by
  unfold pairs
  rw [relay_16x16, mulf_apply, expand_last, expand_mid]
  rfl

theorem triples_apply (v0 : Vec Ideal S512x16 .f32) (p : Fin 512) (c : Fin 4096) :
    triples (F := Ideal) v0 (ix2 p c)
      = pairs (F := Ideal) v0 (ix2 p ⟨c.val / 16, by omega⟩) * v0 (ix2 p ⟨c.val % 16, by omega⟩) := by
  unfold triples
  rw [relay_256x16, mulf_apply, expand_last, expand_mid]
  rfl

/-- Row p of the feature block is the feature row of the block's row p. -/
theorem feats_apply (v0 : Vec Ideal S512x16 .f32) (p : Fin 512) (l : Fin 4369) :
    feats (F := Ideal) v0 (ix2 p l) = feat (fun j => v0 (ix2 p j)) l := by
  have hl := l.isLt
  unfold feats
  rw [join4_apply]
  unfold feat
  by_cases h1 : l.val < 1
  · rw [dif_pos h1, dif_pos h1]
    exact one_bf16
  rw [dif_neg h1, dif_neg h1]
  by_cases h2 : l.val < 17
  · rw [dif_pos h2, dif_pos h2]
    rfl
  rw [dif_neg h2, dif_neg h2]
  by_cases h3 : l.val < 273
  · rw [dif_pos h3, dif_pos h3, pairs_apply]
  rw [dif_neg h3, dif_neg h3, triples_apply, pairs_apply]

/-- The stored value at (p, q). -/
theorem pay_apply (v0 : Vec Ideal S512x16 .f32) (v16 : Vec Ideal S4369x1024 .bf16) (v19 : Vec Ideal S1x1024 .f32)
    (p : Fin 512) (q : Fin 1024) :
    k0_pay1 (F := Ideal) v0 v16 v19 (ix2 p q)
      = (∑ l : Fin 4369, feat (fun j => v0 (ix2 p j)) l * v16 (ix2 l q)) + v19 (ix2 ⟨0, Nat.one_pos⟩ q) := by
  rw [pay_eq, addf_apply, shapeCast_self, shapeCast_self,
    Cert.Gcn.matmul_plain_apply _ ⟨rfl, rfl, rfl, rfl, rfl, rfl⟩ none _ _ p q]
  congr 1
  · exact Finset.sum_congr rfl fun l _ => by rw [feats_apply]
  · exact broadcastTo_apply _ _ _ (ix2 ⟨0, Nat.one_pos⟩ q) (fun a => by
      match a with
      | ⟨0, _⟩ => show 0 = if (1 : ℕ) = 1 then 0 else p.val; rw [if_pos rfl]
      | ⟨1, _⟩ => show q.val = if (1024 : ℕ) = 1 then 0 else q.val; rw [if_neg (by decide)])

end Cert.Poly.Ker

end
-- ==== Proof.KernelValue.lean ====
/-
  From the blocks to the array.  Grid point t = (j, i) stages rows 512·i … 512·i + 511 of z, columns
  1024·j … 1024·j + 1023 of the weights (cast to the narrow format by the host, the identity on extended reals) and
  of the bias (re-laid by the host as one row), and writes back the 512 × 1024 block (i, j) of the result.  The body's
  stored value at an entry of that block is the decoder at the entry's place in the whole array, the sixty-four blocks
  tile the 8192 × 4096 result, and so after the run the result array is the decoder of the three arguments.
-/
import proofs.«108448_j8916352107077_1_alg».proof.Proof.Gen.KernelIdeal.Value
import proofs.«108448_j8916352107077_1_alg».proof.Proof.KernelPayload

noncomputable section

namespace Cert.Poly.KerValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-! ## One entry of one block -/

/-- If a block of z, a block of weights and a bias row hold, at the rows and columns an entry y of the output block
    uses, what the whole arrays hold at the rows and columns the array index i uses, the body's stored value at y is the
    decoder at i. -/
theorem point_eq (z : FVec Ideal ⟨2, ![8192, 16]⟩ .f32) (W : FVec Ideal ⟨2, ![4369, 4096]⟩ .f32) (b : FVec Ideal ⟨1, ![4096]⟩ .f32)
    (v0 : Vec Ideal S512x16 .f32) (v16 : Vec Ideal S4369x1024 .bf16) (v19 : Vec Ideal S1x1024 .f32)
    (y : S512x1024.Idx) (i : S8192x4096.Idx)
    (h0 : ∀ j : Fin 16, v0 (ix2 (y 0) j) = z (ix2 (i 0) j))
    (h1 : ∀ l : Fin 4369, v16 (ix2 l (y 1)) = W (ix2 l (i 1)))
    (h2 : v19 (ix2 ⟨0, Nat.one_pos⟩ (y 1)) = b (ix1 (i 1))) :
    k0_pay1 (F := Ideal) v0 v16 v19 y = Cert.Poly.G z W b i := by
  refine (congrArg (k0_pay1 (F := Ideal) v0 v16 v19) (eq_ix2 y)).trans
    ((Cert.Poly.Ker.pay_apply v0 v16 v19 (y 0) (y 1)).trans ?_)
  rw [h2]
  show _ = (∑ l : Fin 4369, Cert.Poly.feat (fun j => z (ix2 (i 0) j)) l * W (ix2 l (i 1))) + b (ix1 (i 1))
  congr 1
  refine Finset.sum_congr rfl fun l _ => ?_
  rw [h1 l]
  congr 2
  funext j
  exact h0 j

/-! ## What the host wrote before the region -/

/-- The weights the region finds are the argument's, cast to the narrow format. -/
theorem V_weights (c : Dev nD) :
    @Eq (S4369x4096.Idx → EReal) (V m c main_v0)
      (truncf (F := Ideal) (s := S4369x4096) (φ := .f32) .bf16 (m ((c : Thread nD τ).loc main_arg1)) bitsLt_bf16_f32) := by
  dsimp only [Gen.V, Gen.hostOps0]
  after_results

/-- The bias the region finds is the argument's, re-laid as one row. -/
theorem V_bias (c : Dev nD) :
    @Eq (S1x4096.Idx → EReal) (V m c main_v1)
      (shapeCast (s := S4096) (α := EReal) S1x4096 (m ((c : Thread nD τ).loc main_arg2)) shapeCasts_S4096_S1x4096) := by
  dsimp only [Gen.V, Gen.hostOps0]
  after_results
  rfl

/-! ## The index maps, decided over the 64 grid points -/

theorem hz : (![0, 0] : Fin 2 → Nat) = fun _ => 0 := funext fun a => by fin_cases a <;> rfl

/-- The block of z moves with the output's block rows, the blocks of weights and bias with its block columns. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 3 :=
  (by decide +kernel : ∀ t : Fin grid0.N, _)

/-- Every one of the 16 × 4 output blocks is some point's. -/
theorem idx_onto : ∀ (q0 : Fin 16) (q1 : Fin 4), ∃ t : Fin cfg0.N, win0_3.index t = ![q0.val, q1.val] :=
  (by decide +kernel : ∀ (q0 : Fin 16) (q1 : Fin 4), ∃ t : Fin grid0.N, win0_3.index t = ![q0.val, q1.val])

/-! ## What a point writes back -/

/-- Point t writes back block t of the decoder of the argument arrays. -/
theorem flushed_eq (c : Dev nD) (t : Fin cfg0.N) :
    (dats m 0 c).flushed 3 t = ((cfg0.win 3).blk t).view.read (Elt Ideal)
      (Cert.Poly.G (m ((c : Thread nD τ).loc main_arg0)) (m ((c : Thread nD τ).loc main_arg1)) (m ((c : Thread nD τ).loc main_arg2))) := by
  rw [Cert.KernelIdeal.Value.flushed3]
  unfold out0_3
  rw [View.canon_unit_zero hz]
  simp only [View.ld_unit_zero (S := S512x16) hz, View.ld_unit_zero (S := S4369x1024) hz, View.ld_unit_zero (S := S1x1024) hz]
  obtain ⟨e0, e1, e2, e3, e4, e5, e6, e7⟩ := idx_facts t
  funext y
  show k0_pay1 (F := Ideal) (iblk m c 0 t) (iblk m c 1 t) (iblk m c 2 t) y
    = Cert.Poly.G (m ((c : Thread nD τ).loc main_arg0)) (m ((c : Thread nD τ).loc main_arg1)) (m ((c : Thread nD τ).loc main_arg2))
        (((cfg0.win 3).blk t).view.emb y)
  refine point_eq (m ((c : Thread nD τ).loc main_arg0)) (m ((c : Thread nD τ).loc main_arg1)) (m ((c : Thread nD τ).loc main_arg2))
    (iblk m c 0 t) (iblk m c 1 t) (iblk m c 2 t) y (((cfg0.win 3).blk t).view.emb y) ?_ ?_ ?_
  · intro j
    show V m c main_arg0 (((cfg0.win 0).blk t).view.emb (ix2 (y 0) j)) = _
    rw [V_main_arg0]
    refine congrArg _ (funext fun a => Fin.ext ?_)
    match a with
    | ⟨0, _⟩ =>
      show win0_0.index t (0 : Fin 2) * 512 + 1 * (y 0).val = win0_3.index t (0 : Fin 2) * 512 + 1 * (y 0).val
      omega
    | ⟨1, _⟩ =>
      show win0_0.index t (1 : Fin 2) * 16 + 1 * j.val = j.val
      omega
  · intro l
    show (V m c main_v0 : S4369x4096.Idx → EReal) (((cfg0.win 1).blk t).view.emb (ix2 l (y 1))) = _
    rw [V_weights]
    show m ((c : Thread nD τ).loc main_arg1) (((cfg0.win 1).blk t).view.emb (ix2 l (y 1))) = _
    refine congrArg _ (funext fun a => Fin.ext ?_)
    match a with
    | ⟨0, _⟩ =>
      show win0_1.index t (0 : Fin 2) * 4369 + 1 * l.val = l.val
      omega
    | ⟨1, _⟩ =>
      show win0_1.index t (1 : Fin 2) * 1024 + 1 * (y 1).val = win0_3.index t (1 : Fin 2) * 1024 + 1 * (y 1).val
      omega
  · show (V m c main_v1 : S1x4096.Idx → EReal) (((cfg0.win 2).blk t).view.emb (ix2 ⟨0, Nat.one_pos⟩ (y 1))) = _
    rw [V_bias]
    refine shapeCast_apply _ shapeCasts_S4096_S1x4096 _ _ ?_
    rw [Shape.rowMajor_val_one, Shape.rowMajor_val_two]
    show win0_3.index t (1 : Fin 2) * 1024 + 1 * (y 1).val
      = (win0_2.index t (0 : Fin 2) * 1 + 1 * 0) * 4096 + (win0_2.index t (1 : Fin 2) * 1024 + 1 * (y 1).val)
    omega

/-! ## The blocks tile the result -/

/-- An index of the result is in point t's block iff each coordinate is in the block's range on its axis. -/
theorem mem_blk (t : Fin cfg0.N) (i : S8192x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v2).slice (win0_3.rect t)).set ↔ _
  rw [View.set_slice_whole, Rect.mem_set_unit]
  exact Iff.rfl

/-- Every index of the result lies in the block of the point with block row (i 0) / 512 and block column (i 1) / 1024. -/
theorem covered (i : S8192x4096.Idx) : ∃ t : Fin cfg0.N, (cfg0.win 3).flush t = true ∧ i ∈ ((cfg0.win 3).blk t).view.set := by
  have hi0 : (i 0).val < 8192 := (i 0).isLt
  have hi1 : (i 1).val < 4096 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-! ## The result array, and the run -/

/-- After the run the result array is the decoder of the argument arrays. -/
theorem final (c : Dev nD) : (dats m 0 c).arrAt 3 cfg0.N
    = Cert.Poly.G (m ((c : Thread nD τ).loc main_arg0)) (m ((c : Thread nD τ).loc main_arg1)) (m ((c : Thread nD τ).loc main_arg2)) :=
  (dats m 0 c).arrAt_eq_of_cover 3 _ (fun t _ => flushed_eq m c t) covered

/-- Every weakly fair execution of the idealized kernel ends with the result at the decoder of the arguments and the
    arguments unchanged. -/
theorem run : θ_run defs (onTc (τ := τ) (main (F := Ideal))) ⟨m, fun _ => 0, ρ⟩ fun r => ∀ c : Dev nD,
      r.2.mem ((c : Thread nD τ).loc main_v2)
        = Cert.Poly.G (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Cert.KernelIdeal.Value.run_blocks m ρ)

end Cert.Poly.KerValue

end
-- ==== Proof.RefDecoder.lean ====
/-
  The reference, stage by stage, is the decoder: its joined array's row r is the feature row of z's row r — a column
  of ones, z itself, the pairwise products re-laid row-major, and those times z again re-laid row-major —, its
  product with W at (r, c) is the sum over the 4369 features, and the bias is added along the rows.
-/
import proofs.«108448_j8916352107077_1_alg».proof.Proof.Gen.ReferenceIdeal.Read
import proofs.«108448_j8916352107077_1_alg».proof.Proof.PolyFeatures

noncomputable section

namespace Cert.Poly.Ref

open Idealize.ShloMosaic Idealize.ShloMosaic.ValueIdx
open Cert.ReferenceIdeal Cert.ReferenceIdeal.Gen Cert.ReferenceIdeal.Read

/-- The pairwise products: column c of row r is z(r, c / 16) · z(r, c mod 16). -/
theorem pairs_apply (x0 : FVec Ideal S8192x16 .f32) (r : Fin 8192) (c : Fin 256) :
    val_main_v6 (F := Ideal) x0 (ix2 r c) = x0 (ix2 r ⟨c.val / 16, by omega⟩) * x0 (ix2 r ⟨c.val % 16, by omega⟩) := by
  have hr := r.isLt
  have hc := c.isLt
  rw [val_main_v6_apply, val_main_v5_apply, val_main_v3_apply, val_main_v1_apply, val_main_v4_apply, val_main_v2_apply]
  have e1 : idx_main_v1 (idx_main_v3 (idx_main_v6 (ix2 r c))) = ix2 r ⟨c.val / 16, by omega⟩ := funext fun a => Fin.ext (by
    match a with
    | ⟨0, _⟩ => show (r.val * 256 + c.val) / 256 = r.val; omega
    | ⟨1, _⟩ => show (r.val * 256 + c.val) / 16 % 16 = c.val / 16; omega)
  have e2 : idx_main_v2 (idx_main_v4 (idx_main_v6 (ix2 r c))) = ix2 r ⟨c.val % 16, by omega⟩ := funext fun a => Fin.ext (by
    match a with
    | ⟨0, _⟩ => show (r.val * 256 + c.val) / 256 = r.val; omega
    | ⟨1, _⟩ => show (r.val * 256 + c.val) % 16 = c.val % 16; omega)
  rw [e1, e2]
  rfl

/-- The triple products: column c of row r is the pair product at c / 16 times z(r, c mod 16). -/
theorem triples_apply (x0 : FVec Ideal S8192x16 .f32) (r : Fin 8192) (c : Fin 4096) :
    val_main_v12 (F := Ideal) x0 (ix2 r c)
      = val_main_v6 (F := Ideal) x0 (ix2 r ⟨c.val / 16, by omega⟩) * x0 (ix2 r ⟨c.val % 16, by omega⟩) := by
  have hr := r.isLt
  have hc := c.isLt
  rw [val_main_v12_apply, val_main_v11_apply, val_main_v9_apply, val_main_v7_apply, val_main_v10_apply, val_main_v8_apply]
  have e1 : idx_main_v7 (idx_main_v9 (idx_main_v12 (ix2 r c))) = ix2 r ⟨c.val / 16, by omega⟩ := funext fun a => Fin.ext (by
    match a with
    | ⟨0, _⟩ => show (r.val * 4096 + c.val) / 4096 = r.val; omega
    | ⟨1, _⟩ => show (r.val * 4096 + c.val) / 16 % 256 = c.val / 16; omega)
  have e2 : idx_main_v8 (idx_main_v10 (idx_main_v12 (ix2 r c))) = ix2 r ⟨c.val % 16, by omega⟩ := funext fun a => Fin.ext (by
    match a with
    | ⟨0, _⟩ => show (r.val * 4096 + c.val) / 4096 = r.val; omega
    | ⟨1, _⟩ => show (r.val * 4096 + c.val) % 16 = c.val % 16; omega)
  rw [e1, e2]
  rfl

/-- Row r of the joined array is the feature row of z's row r. -/
theorem joined_apply (x0 : FVec Ideal S8192x16 .f32) (r : Fin 8192) (l : Fin 4369) :
    val_main_v13 (F := Ideal) x0 (ix2 r l) = feat (fun j => x0 (ix2 r j)) l := by
  have hl := l.isLt
  unfold val_main_v13
  rw [join4_apply]
  unfold feat
  by_cases h1 : l.val < 1
  · rw [dif_pos h1, dif_pos h1, val_main_v0_apply, val_main_cst_apply]
    exact one_f32
  rw [dif_neg h1, dif_neg h1]
  by_cases h2 : l.val < 17
  · rw [dif_pos h2, dif_pos h2]
  rw [dif_neg h2, dif_neg h2]
  by_cases h3 : l.val < 273
  · rw [dif_pos h3, dif_pos h3, pairs_apply]
  rw [dif_neg h3, dif_neg h3, triples_apply, pairs_apply]

/-- The reference's result is the decoder of its arguments. -/
theorem result_eq (x0 : FVec Ideal S8192x16 .f32) (x1 : FVec Ideal S4369x4096 .f32) (x2 : FVec Ideal S4096 .f32) :
    val_main_v17 (F := Ideal) x0 x1 x2 = G x0 x1 x2 := by
  funext i
  obtain ⟨r, c, rfl⟩ : ∃ (r : Fin 8192) (c : Fin 4096), i = ix2 r c := ⟨i 0, i 1, eq_ix2 i⟩
  rw [val_main_v17_apply, val_main_v14_apply, val_main_v16_apply, val_main_v15_apply]
  have el : ∀ k : Fin 4369, lidx_main_v14 (ix2 r c) k = ix2 r k := fun k => funext fun a => by
    match a with
    | ⟨0, _⟩ => rfl
    | ⟨1, _⟩ => rfl
  have er : ∀ k : Fin 4369, ridx_main_v14 (ix2 r c) k = ix2 k c := fun k => funext fun a => by
    match a with
    | ⟨0, _⟩ => rfl
    | ⟨1, _⟩ => rfl
  have eb : idx_main_v15 (idx_main_v16 (ix2 r c)) = ix1 c := funext fun a => by
    match a with
    | ⟨0, _⟩ => rfl
  simp only [el, er, eb, joined_apply]
  rfl

end Cert.Poly.Ref

end
-- ==== Proof.lean ====
/-
  A polynomial decoder: each of 8192 samples z_r in 16 dimensions is sent to its 4369 monomials of degree at most three
  — 1, the z_i, the products z_i · z_j and the products (z_i · z_j) · z_k, each family row-major —, and the result is that
  feature row against a 4369 × 4096 weight matrix plus a bias:
      out(r, c) = Σ_l feat(z_r)(l) · W(l, c) + b(c).
  The kernel computes it on a 4 × 16 grid, one 512 × 1024 block of the result per point, building the features of 512
  samples inside the body in the sixteen-bit format and multiplying them with a block of weights the host has cast to
  that format; the reference builds all features at once in single precision and multiplies once.  On the extended
  reals a change of format is the identity and both products are the plain sum over the 4369 features, taken in the
  same order with the same factors, so the two results are one function of the arguments (Cert.Poly.G) and no
  hypothesis on the inputs is used.  The only literals are the two words of 1.0, which both denote 1.
  The three frames are the generated ones (the reference's is its run with the result dropped); nothing was rewritten
  by the idealization, so there is nothing to preserve.
-/
import proofs.«108448_j8916352107077_1_alg».proof.Defs
import proofs.«108448_j8916352107077_1_alg».proof.Proof.Gen.Kernel
import proofs.«108448_j8916352107077_1_alg».proof.Proof.Gen.Kernel.Skeleton
import proofs.«108448_j8916352107077_1_alg».proof.Proof.Gen.Kernel.Launch
import proofs.«108448_j8916352107077_1_alg».proof.Proof.Gen.Kernel.Points
import proofs.«108448_j8916352107077_1_alg».proof.Proof.Gen.Kernel.Frame
import proofs.«108448_j8916352107077_1_alg».proof.Proof.Gen.KernelIdeal
import proofs.«108448_j8916352107077_1_alg».proof.Proof.Gen.KernelIdeal.Skeleton
import proofs.«108448_j8916352107077_1_alg».proof.Proof.Gen.KernelIdeal.Launch
import proofs.«108448_j8916352107077_1_alg».proof.Proof.Gen.KernelIdeal.Points
import proofs.«108448_j8916352107077_1_alg».proof.Proof.Gen.KernelIdeal.Frame
import proofs.«108448_j8916352107077_1_alg».proof.Proof.Gen.ReferenceIdeal
import proofs.«108448_j8916352107077_1_alg».proof.Proof.Gen.Pre_finite_inputs
import proofs.«108448_j8916352107077_1_alg».proof.Proof.Gen.KernelIdeal.Value
import proofs.«108448_j8916352107077_1_alg».proof.Proof.Gen.ReferenceIdeal.Run
import proofs.«108448_j8916352107077_1_alg».proof.Proof.Gen.ReferenceIdeal.Read
import proofs.«108448_j8916352107077_1_alg».proof.Proof.KernelValue
import proofs.«108448_j8916352107077_1_alg».proof.Proof.RefDecoder
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference has no kernel: its frame is its run, the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the decoder of their arguments, and the arguments agree. -/
theorem algebraic : Cert.algebraic_KernelIdeal_ReferenceIdeal := by
  intro m ρ m' ρ' _ hagree
  refine ⟨_, Cert.Poly.KerValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.Poly.Ref.result_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
